-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x32 : Shape := ⟨3, ![16384, 64, 32]⟩
abbrev S_ : Shape := ⟨0, ![]⟩

class Facts : Prop where
  bcast_S_S16384x64x32 : S_.BroadcastsInDim S16384x64x32 (![] : Fin 0 → Fin S16384x64x32.rank)
  reducesTo_S16384x64x32_S_d0_1_2 : S16384x64x32.ReducesTo [0, 1, 2] S_
  h_S_ : 0 < S_.numel

variable [Facts]

def fn {F : FTy → Type} [FloatOps F] (main_arg0 : FVec F S16384x64x32 .f32) : IVec S_ 1 :=
  let main_v0 : FVec F S16384x64x32 .f32 := Host.absf main_arg0
  let main_cst : FVec F S_ .f32 := constant S_ .f32 0x7F800000#32
  let main_v1 : FVec F S16384x64x32 .f32 := broadcastInDim S16384x64x32 ![] bcast_S_S16384x64x32 main_cst
  let main_v2 : IVec S16384x64x32 1 := cmpf .olt main_v0 main_v1
  let main_c : IVec S_ 1 := constantI S_ 1 1#1
  let main_v3 : IVec S_ 1 := (fun x v => Host.reduce IntOp.andi x v reducesTo_S16384x64x32_S_d0_1_2 h_S_) main_v2 main_c
  main_v3
-- ==== Kernel.lean ====
abbrev S16384x64x32 : Shape := ⟨3, ![16384, 64, 32]⟩
abbrev S16384x2048 : Shape := ⟨2, ![16384, 2048]⟩
abbrev S16384x2016 : Shape := ⟨2, ![16384, 2016]⟩
abbrev S256x2048 : Shape := ⟨2, ![256, 2048]⟩
abbrev S256x2016 : Shape := ⟨2, ![256, 2016]⟩
abbrev S256x64x32 : Shape := ⟨3, ![256, 64, 32]⟩
abbrev S256x64x64 : Shape := ⟨3, ![256, 64, 64]⟩
abbrev S256x4096 : Shape := ⟨2, ![256, 4096]⟩
abbrev S256x63 : Shape := ⟨2, ![256, 63]⟩
abbrev S256x62 : Shape := ⟨2, ![256, 62]⟩
abbrev S256x61 : Shape := ⟨2, ![256, 61]⟩
abbrev S256x60 : Shape := ⟨2, ![256, 60]⟩
abbrev S256x59 : Shape := ⟨2, ![256, 59]⟩
abbrev S256x58 : Shape := ⟨2, ![256, 58]⟩
abbrev S256x57 : Shape := ⟨2, ![256, 57]⟩
abbrev S256x56 : Shape := ⟨2, ![256, 56]⟩
abbrev S256x55 : Shape := ⟨2, ![256, 55]⟩
abbrev S256x54 : Shape := ⟨2, ![256, 54]⟩
abbrev S256x53 : Shape := ⟨2, ![256, 53]⟩
abbrev S256x52 : Shape := ⟨2, ![256, 52]⟩
abbrev S256x51 : Shape := ⟨2, ![256, 51]⟩
abbrev S256x50 : Shape := ⟨2, ![256, 50]⟩
abbrev S256x49 : Shape := ⟨2, ![256, 49]⟩
abbrev S256x48 : Shape := ⟨2, ![256, 48]⟩
abbrev S256x47 : Shape := ⟨2, ![256, 47]⟩
abbrev S256x46 : Shape := ⟨2, ![256, 46]⟩
abbrev S256x45 : Shape := ⟨2, ![256, 45]⟩
abbrev S256x44 : Shape := ⟨2, ![256, 44]⟩
abbrev S256x43 : Shape := ⟨2, ![256, 43]⟩
abbrev S256x42 : Shape := ⟨2, ![256, 42]⟩
abbrev S256x41 : Shape := ⟨2, ![256, 41]⟩
abbrev S256x40 : Shape := ⟨2, ![256, 40]⟩
abbrev S256x39 : Shape := ⟨2, ![256, 39]⟩
abbrev S256x38 : Shape := ⟨2, ![256, 38]⟩
abbrev S256x37 : Shape := ⟨2, ![256, 37]⟩
abbrev S256x36 : Shape := ⟨2, ![256, 36]⟩
abbrev S256x35 : Shape := ⟨2, ![256, 35]⟩
abbrev S256x34 : Shape := ⟨2, ![256, 34]⟩
abbrev S256x33 : Shape := ⟨2, ![256, 33]⟩
abbrev S256x32 : Shape := ⟨2, ![256, 32]⟩
abbrev S256x31 : Shape := ⟨2, ![256, 31]⟩
abbrev S256x30 : Shape := ⟨2, ![256, 30]⟩
abbrev S256x29 : Shape := ⟨2, ![256, 29]⟩
abbrev S256x28 : Shape := ⟨2, ![256, 28]⟩
abbrev S256x27 : Shape := ⟨2, ![256, 27]⟩
abbrev S256x26 : Shape := ⟨2, ![256, 26]⟩
abbrev S256x25 : Shape := ⟨2, ![256, 25]⟩
abbrev S256x24 : Shape := ⟨2, ![256, 24]⟩
abbrev S256x23 : Shape := ⟨2, ![256, 23]⟩
abbrev S256x22 : Shape := ⟨2, ![256, 22]⟩
abbrev S256x21 : Shape := ⟨2, ![256, 21]⟩
abbrev S256x20 : Shape := ⟨2, ![256, 20]⟩
abbrev S256x19 : Shape := ⟨2, ![256, 19]⟩
abbrev S256x18 : Shape := ⟨2, ![256, 18]⟩
abbrev S256x17 : Shape := ⟨2, ![256, 17]⟩
abbrev S256x16 : Shape := ⟨2, ![256, 16]⟩
abbrev S256x15 : Shape := ⟨2, ![256, 15]⟩
abbrev S256x14 : Shape := ⟨2, ![256, 14]⟩
abbrev S256x13 : Shape := ⟨2, ![256, 13]⟩
abbrev S256x12 : Shape := ⟨2, ![256, 12]⟩
abbrev S256x11 : Shape := ⟨2, ![256, 11]⟩
abbrev S256x10 : Shape := ⟨2, ![256, 10]⟩
abbrev S256x9 : Shape := ⟨2, ![256, 9]⟩
abbrev S256x8 : Shape := ⟨2, ![256, 8]⟩
abbrev S256x7 : Shape := ⟨2, ![256, 7]⟩
abbrev S256x6 : Shape := ⟨2, ![256, 6]⟩
abbrev S256x5 : Shape := ⟨2, ![256, 5]⟩
abbrev S256x4 : Shape := ⟨2, ![256, 4]⟩
abbrev S256x3 : Shape := ⟨2, ![256, 3]⟩
abbrev S256x2 : Shape := ⟨2, ![256, 2]⟩
abbrev S256x1 : Shape := ⟨2, ![256, 1]⟩

abbrev nBuf : Space → Nat
  | .hbm => 3
  | .vmem => 4
  | .smem => 0
  | _ => 0

abbrev bufTy : (tb : Table) → Fin (tcTables nBuf tb) → BufTy
  | .hbm, ⟨0, _⟩ => ⟨S16384x64x32, .f32⟩
  | .hbm, ⟨1, _⟩ => ⟨S16384x2048, .f32⟩
  | .hbm, ⟨2, _⟩ => ⟨S16384x2016, .f32⟩
  | .local _ .vmem, ⟨0, _⟩ => ⟨S256x2048, .f32⟩
  | .local _ .vmem, ⟨1, _⟩ => ⟨S256x2048, .f32⟩
  | .local _ .vmem, ⟨2, _⟩ => ⟨S256x2016, .f32⟩
  | .local _ .vmem, ⟨3, _⟩ => ⟨S256x2016, .f32⟩
  | _, _ => ⟨S16384x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16384x64x32_S16384x2048 : S16384x64x32.ShapeCasts S16384x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  shapeCasts_S256x2048_S256x64x32 : S256x2048.ShapeCasts S256x64x32
  shapeCasts_S256x64x64_S256x4096 : S256x64x64.ShapeCasts S256x4096
  slices_S256x4096_o0_1_S256x63 : S256x4096.Slices ![0, 1] S256x63
  slices_S256x4096_o0_66_S256x62 : S256x4096.Slices ![0, 66] S256x62
  slices_S256x4096_o0_131_S256x61 : S256x4096.Slices ![0, 131] S256x61
  slices_S256x4096_o0_196_S256x60 : S256x4096.Slices ![0, 196] S256x60
  slices_S256x4096_o0_261_S256x59 : S256x4096.Slices ![0, 261] S256x59
  slices_S256x4096_o0_326_S256x58 : S256x4096.Slices ![0, 326] S256x58
  slices_S256x4096_o0_391_S256x57 : S256x4096.Slices ![0, 391] S256x57
  slices_S256x4096_o0_456_S256x56 : S256x4096.Slices ![0, 456] S256x56
  slices_S256x4096_o0_521_S256x55 : S256x4096.Slices ![0, 521] S256x55
  slices_S256x4096_o0_586_S256x54 : S256x4096.Slices ![0, 586] S256x54
  slices_S256x4096_o0_651_S256x53 : S256x4096.Slices ![0, 651] S256x53
  slices_S256x4096_o0_716_S256x52 : S256x4096.Slices ![0, 716] S256x52
  slices_S256x4096_o0_781_S256x51 : S256x4096.Slices ![0, 781] S256x51
  slices_S256x4096_o0_846_S256x50 : S256x4096.Slices ![0, 846] S256x50
  slices_S256x4096_o0_911_S256x49 : S256x4096.Slices ![0, 911] S256x49
  slices_S256x4096_o0_976_S256x48 : S256x4096.Slices ![0, 976] S256x48
  slices_S256x4096_o0_1041_S256x47 : S256x4096.Slices ![0, 1041] S256x47
  slices_S256x4096_o0_1106_S256x46 : S256x4096.Slices ![0, 1106] S256x46
  slices_S256x4096_o0_1171_S256x45 : S256x4096.Slices ![0, 1171] S256x45
  slices_S256x4096_o0_1236_S256x44 : S256x4096.Slices ![0, 1236] S256x44
  slices_S256x4096_o0_1301_S256x43 : S256x4096.Slices ![0, 1301] S256x43
  slices_S256x4096_o0_1366_S256x42 : S256x4096.Slices ![0, 1366] S256x42
  slices_S256x4096_o0_1431_S256x41 : S256x4096.Slices ![0, 1431] S256x41
  slices_S256x4096_o0_1496_S256x40 : S256x4096.Slices ![0, 1496] S256x40
  slices_S256x4096_o0_1561_S256x39 : S256x4096.Slices ![0, 1561] S256x39
  slices_S256x4096_o0_1626_S256x38 : S256x4096.Slices ![0, 1626] S256x38
  slices_S256x4096_o0_1691_S256x37 : S256x4096.Slices ![0, 1691] S256x37
  slices_S256x4096_o0_1756_S256x36 : S256x4096.Slices ![0, 1756] S256x36
  slices_S256x4096_o0_1821_S256x35 : S256x4096.Slices ![0, 1821] S256x35
  slices_S256x4096_o0_1886_S256x34 : S256x4096.Slices ![0, 1886] S256x34
  slices_S256x4096_o0_1951_S256x33 : S256x4096.Slices ![0, 1951] S256x33
  slices_S256x4096_o0_2016_S256x32 : S256x4096.Slices ![0, 2016] S256x32
  slices_S256x4096_o0_2081_S256x31 : S256x4096.Slices ![0, 2081] S256x31
  slices_S256x4096_o0_2146_S256x30 : S256x4096.Slices ![0, 2146] S256x30
  slices_S256x4096_o0_2211_S256x29 : S256x4096.Slices ![0, 2211] S256x29
  slices_S256x4096_o0_2276_S256x28 : S256x4096.Slices ![0, 2276] S256x28
  slices_S256x4096_o0_2341_S256x27 : S256x4096.Slices ![0, 2341] S256x27
  slices_S256x4096_o0_2406_S256x26 : S256x4096.Slices ![0, 2406] S256x26
  slices_S256x4096_o0_2471_S256x25 : S256x4096.Slices ![0, 2471] S256x25
  slices_S256x4096_o0_2536_S256x24 : S256x4096.Slices ![0, 2536] S256x24
  slices_S256x4096_o0_2601_S256x23 : S256x4096.Slices ![0, 2601] S256x23
  slices_S256x4096_o0_2666_S256x22 : S256x4096.Slices ![0, 2666] S256x22
  slices_S256x4096_o0_2731_S256x21 : S256x4096.Slices ![0, 2731] S256x21
  slices_S256x4096_o0_2796_S256x20 : S256x4096.Slices ![0, 2796] S256x20
  slices_S256x4096_o0_2861_S256x19 : S256x4096.Slices ![0, 2861] S256x19
  slices_S256x4096_o0_2926_S256x18 : S256x4096.Slices ![0, 2926] S256x18
  slices_S256x4096_o0_2991_S256x17 : S256x4096.Slices ![0, 2991] S256x17
  slices_S256x4096_o0_3056_S256x16 : S256x4096.Slices ![0, 3056] S256x16
  slices_S256x4096_o0_3121_S256x15 : S256x4096.Slices ![0, 3121] S256x15
  slices_S256x4096_o0_3186_S256x14 : S256x4096.Slices ![0, 3186] S256x14
  slices_S256x4096_o0_3251_S256x13 : S256x4096.Slices ![0, 3251] S256x13
  slices_S256x4096_o0_3316_S256x12 : S256x4096.Slices ![0, 3316] S256x12
  slices_S256x4096_o0_3381_S256x11 : S256x4096.Slices ![0, 3381] S256x11
  slices_S256x4096_o0_3446_S256x10 : S256x4096.Slices ![0, 3446] S256x10
  slices_S256x4096_o0_3511_S256x9 : S256x4096.Slices ![0, 3511] S256x9
  slices_S256x4096_o0_3576_S256x8 : S256x4096.Slices ![0, 3576] S256x8
  slices_S256x4096_o0_3641_S256x7 : S256x4096.Slices ![0, 3641] S256x7
  slices_S256x4096_o0_3706_S256x6 : S256x4096.Slices ![0, 3706] S256x6
  slices_S256x4096_o0_3771_S256x5 : S256x4096.Slices ![0, 3771] S256x5
  slices_S256x4096_o0_3836_S256x4 : S256x4096.Slices ![0, 3836] S256x4
  slices_S256x4096_o0_3901_S256x3 : S256x4096.Slices ![0, 3901] S256x3
  slices_S256x4096_o0_3966_S256x2 : S256x4096.Slices ![0, 3966] S256x2
  slices_S256x4096_o0_4031_S256x1 : S256x4096.Slices ![0, 4031] S256x1
  concatenates_S256x63_S256x62_S256x61_S256x60_S256x59_S256x58_S256x57_S256x56_S256x55_S256x54_S256x53_S256x52_S256x51_S256x50_S256x49_S256x48_S256x47_S256x46_S256x45_S256x44_S256x43_S256x42_S256x41_S256x40_S256x39_S256x38_S256x37_S256x36_S256x35_S256x34_S256x33_S256x32_S256x31_S256x30_S256x29_S256x28_S256x27_S256x26_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x2016_d1 : Shape.Concatenates (S256x63 :: S256x62 :: S256x61 :: S256x60 :: S256x59 :: S256x58 :: S256x57 :: S256x56 :: S256x55 :: S256x54 :: S256x53 :: S256x52 :: S256x51 :: S256x50 :: S256x49 :: S256x48 :: S256x47 :: S256x46 :: S256x45 :: S256x44 :: S256x43 :: S256x42 :: S256x41 :: S256x40 :: S256x39 :: S256x38 :: S256x37 :: S256x36 :: S256x35 :: S256x34 :: S256x33 :: S256x32 :: S256x31 :: S256x30 :: S256x29 :: S256x28 :: S256x27 :: S256x26 :: S256x25 :: S256x24 :: S256x23 :: S256x22 :: S256x21 :: S256x20 :: S256x19 :: S256x18 :: S256x17 :: S256x16 :: S256x15 :: S256x14 :: S256x13 :: S256x12 :: S256x11 :: S256x10 :: S256x9 :: S256x8 :: S256x7 :: S256x6 :: S256x5 :: S256x4 :: S256x3 :: S256x2 :: S256x1 :: []) S256x2016 1
  inb_S256x2016_S256x2016_0_0 : ∀ a, (![0, 0] : Fin 2 → Nat) a + S256x2016.size a ≤ S256x2016.size a
  h_S256x2016 : 0 < S256x2016.numel
  dot_S256x64x32_S256x64x32_S256x64x64_2_2_1_1_0_0_wf : DotDims.WF S256x64x32 S256x64x32 S256x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2016.size a ≤ S16384x2016.size a
  hwx0_1 : ∀ i : grid0.Coords, EltTy.bits .f32 = 32 ∨ (Rect.block (s := S16384x2016) S256x2016.size (cc0_transform_1 i) (hinb0_1 i)).WholeWords (EltTy.packing .f32)

variable [Facts₀]

def dot_S256x64x32_S256x64x32_S256x64x64_2_2_1_1_0_0 : DotDims S256x64x32 S256x64x32 S256x64x64 where
  lhsContracting := [2]
  rhsContracting := [2]
  lhsNonContracting := [1]
  rhsNonContracting := [1]
  lhsBatch := [0]
  rhsBatch := [0]
  wf := dot_S256x64x32_S256x64x32_S256x64x64_2_2_1_1_0_0_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x64x32 : Shape := ⟨3, ![16384, 64, 32]⟩
abbrev S2016 : Shape := ⟨1, ![2016]⟩
abbrev S16384x64x64 : Shape := ⟨3, ![16384, 64, 64]⟩
abbrev S_ : Shape := ⟨0, ![]⟩
abbrev S2016x1 : Shape := ⟨2, ![2016, 1]⟩
abbrev S2016x2 : Shape := ⟨2, ![2016, 2]⟩
abbrev S16384x2016 : Shape := ⟨2, ![16384, 2016]⟩

abbrev nBuf : Space → Nat
  | .hbm => 22
  | .vmem => 0
  | .smem => 0
  | _ => 0

abbrev bufTy : (tb : Table) → Fin (tcTables nBuf tb) → BufTy
  | .hbm, ⟨0, _⟩ => ⟨S16384x64x32, .f32⟩
  | .hbm, ⟨1, _⟩ => ⟨S2016, .i32⟩
  | .hbm, ⟨2, _⟩ => ⟨S2016, .i32⟩
  | .hbm, ⟨3, _⟩ => ⟨S16384x64x64, .f32⟩
  | .hbm, ⟨4, _⟩ => ⟨S_, .i32⟩
  | .hbm, ⟨5, _⟩ => ⟨S2016, .i32⟩
  | .hbm, ⟨6, _⟩ => ⟨S2016, .i1⟩
  | .hbm, ⟨7, _⟩ => ⟨S_, .i32⟩
  | .hbm, ⟨8, _⟩ => ⟨S2016, .i32⟩
  | .hbm, ⟨9, _⟩ => ⟨S2016, .i32⟩
  | .hbm, ⟨10, _⟩ => ⟨S2016, .i32⟩
  | .hbm, ⟨11, _⟩ => ⟨S_, .i32⟩
  | .hbm, ⟨12, _⟩ => ⟨S2016, .i32⟩
  | .hbm, ⟨13, _⟩ => ⟨S2016, .i1⟩
  | .hbm, ⟨14, _⟩ => ⟨S_, .i32⟩
  | .hbm, ⟨15, _⟩ => ⟨S2016, .i32⟩
  | .hbm, ⟨16, _⟩ => ⟨S2016, .i32⟩
  | .hbm, ⟨17, _⟩ => ⟨S2016, .i32⟩
  | .hbm, ⟨18, _⟩ => ⟨S2016x1, .i32⟩
  | .hbm, ⟨19, _⟩ => ⟨S2016x1, .i32⟩
  | .hbm, ⟨20, _⟩ => ⟨S2016x2, .i32⟩
  | .hbm, ⟨21, _⟩ => ⟨S16384x2016, .f32⟩
  | _, _ => ⟨S16384x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S16384x64x32_S16384x64x32_S16384x64x64_2_2_1_1_0_0_wf : DotDims.WF S16384x64x32 S16384x64x32 S16384x64x64 [2] [2] [1] [1] [0] [0]
  gather_S16384x64x64_S2016x2_S16384x2016_0_12_n_n_12_1_1638411_wf : GatherDims.WF S16384x64x64 S2016x2 S16384x2016 [0] [1, 2] [] [1, 2] [] 1 ![16384, 1, 1]

variable [Facts₀]

def dot_S16384x64x32_S16384x64x32_S16384x64x64_2_2_1_1_0_0 : DotDims S16384x64x32 S16384x64x32 S16384x64x64 where
  lhsContracting := [2]
  rhsContracting := [2]
  lhsNonContracting := [1]
  rhsNonContracting := [1]
  lhsBatch := [0]
  rhsBatch := [0]
  wf := dot_S16384x64x32_S16384x64x32_S16384x64x64_2_2_1_1_0_0_wf
def gather_S16384x64x64_S2016x2_S16384x2016_0_12_n_n_12_1_1638411 : GatherDims S16384x64x64 S2016x2 S16384x2016 where
  offsetDims := [0]
  collapsedSliceDims := [1, 2]
  operandBatchingDims := []
  startIndicesBatchingDims := []
  startIndexMap := [1, 2]
  indexVectorDim := 1
  sliceSizes := ![16384, 1, 1]
  wf := gather_S16384x64x64_S2016x2_S16384x2016_0_12_n_n_12_1_1638411_wf

class Facts : Prop extends Facts₀ where

variable [Facts]
-- ==== Proof.PairSpec.lean ====
/-
  The packing order of the strict upper triangle of a 64 x 64 matrix, and the function both programs compute.

  Position q (0 <= q < 2016) of the packed row holds the entry (f, g), f < g, of the Gram matrix of the 64 field
  vectors of one sample, the pairs taken row by row: (0,1), (0,2), ..., (0,63), (1,2), ..., (62,63).
  `pairAt` walks the rows: row f has 63 - f pairs, so position q lies in row f when it is below that count
  and otherwise 63 - f positions further down in the rows from f + 1 on.  `flatCol q = 64 f + g` is the column of
  that entry in the Gram matrix laid out flat (64 x 64 -> 4096), and `fI`, `fJ` read f and g back off it.
  `G x` is the packed Gram row of every sample: entry (b, q) is the inner product, over the 32 coordinates, of
  field vectors f and g of sample b.
-/
import Idealize.ShloMosaic.PureOps.Ideal
import Idealize.ShloMosaic.Lib.ValueIdx

noncomputable section

namespace Cert.Pairs

open Idealize.ShloMosaic Idealize.ShloMosaic.ValueIdx

/-- The pair at position `q` counted from the start of row `f`, with `fuel` rows left to walk. -/
def pairAt : Nat → Nat → Nat → Nat × Nat
  | 0, f, q => (f, f + 1 + q)
  | fuel + 1, f, q => if q < 63 - f then (f, f + 1 + q) else pairAt fuel (f + 1) (q - (63 - f))

/-- The flat column `64 f + g` of the pair at position `q` (reduced into the 4096 columns, which changes nothing
    for `q < 2016`). -/
def flatCol (q : Nat) : Nat := (64 * (pairAt 63 0 q).1 + (pairAt 63 0 q).2) % 4096

theorem flatCol_lt (q : Nat) : flatCol q < 4096 := Nat.mod_lt _ (by decide)

/-- The row `f` of the pair at position `q`. -/
def fI (q : Nat) : Fin 64 := ⟨flatCol q / 64, by have := flatCol_lt q; omega⟩

/-- The column `g` of the pair at position `q`. -/
def fJ (q : Nat) : Fin 64 := ⟨flatCol q % 64, Nat.mod_lt _ (by decide)⟩

theorem flatCol_eq (q : Nat) : flatCol q = 64 * (fI q).val + (fJ q).val := by
  show flatCol q = 64 * (flatCol q / 64) + flatCol q % 64
  omega

/-- Row `f` of the triangle starts at position `start f`: the pairs of the rows before it. -/
def start : Nat → Nat
  | 0 => 0
  | f + 1 => start f + (63 - f)

/-- Row `f`, offset `i < 63 - f`: the pair `(f, f + 1 + i)`, flat column `65 f + 1 + i`. -/
theorem flatCol_row : ∀ f : Fin 63, ∀ i : Fin 63, i.val < 63 - f.val → flatCol (start f.val + i.val) = 65 * f.val + 1 + i.val := by
  decide +kernel

/-- The packed upper triangle of each sample's Gram matrix: entry `(b, q)` is the inner product of field vectors
    `fI q` and `fJ q` of sample `b`. -/
def G (x : FVec Ideal ⟨3, ![16384, 64, 32]⟩ .f32) : FVec Ideal ⟨2, ![16384, 2016]⟩ .f32 :=
  fun j => ∑ d : Fin 32, x (ix3 (j 0) (fI (j 1).val) d) * x (ix3 (j 0) (fJ (j 1).val) d)

end Cert.Pairs

end
-- ==== Proof.LibConcatCols.lean ====
/-
  A concatenation along the columns, read at an index.

  Pieces of rank 2 laid side by side along axis 1: the result at `(r, c)` is the piece whose span of columns holds
  `c`, read at row `r` and at `c` less the widths of the pieces before it.  `PiecesRead P pre xs` says that every
  piece of `xs`, the first one starting at column `pre`, agrees with one function `P` of the row and of the column in
  the result; then the concatenation is `P` (`concatenate_cols_apply`).
-/
import Idealize.ShloMosaic.Lib.Pipeline.Value

noncomputable section

namespace Idealize.ShloMosaic.ConcatCols

variable {α : Type}

/-- The extent of a rank-2 shape along its columns (0 for another rank). -/
def width (s : Shape) : Nat := if h : s.rank = 2 then s.size (Fin.cast h.symm 1) else 0

/-- Every piece of the list, laid from column `pre` on, reads as `P row column`. -/
def PiecesRead (P : Nat → Nat → α) : Nat → List ((s : Shape) × (s.Idx → α)) → Prop
  | _, [] => True
  | pre, p :: xs =>
    (∃ h : p.1.rank = 2, ∀ i : p.1.Idx, p.2 i = P (i (Fin.cast h.symm 0)).val (pre + (i (Fin.cast h.symm 1)).val))
      ∧ PiecesRead P (pre + width p.1) xs

/-- A position under the sum of a list of extents falls in the span of one of them. -/
theorem exists_span : ∀ (ns : List Nat) (c : Nat), c < ns.sum →
    ∃ k, ∃ hk : k < ns.length, (ns.take k).sum ≤ c ∧ c < (ns.take k).sum + ns[k]
  | [], c, h => absurd h (by simp)
  | n :: ns, c, h => by
    by_cases hc : c < n
    · exact ⟨0, by simp, by simp, by simpa using hc⟩
    · rw [List.sum_cons] at h
      obtain ⟨k, hk, lo, hi⟩ := exists_span ns (c - n) (by omega)
      refine ⟨k + 1, by simpa using hk, ?_, ?_⟩
      · simp only [List.take_succ_cons, List.sum_cons]; omega
      · simp only [List.take_succ_cons, List.sum_cons, List.getElem_cons_succ]; omega

/-- The `k`-th piece of a list whose pieces read as `P` from column `pre` on reads as `P` from column `pre` plus the
    widths of the pieces before it. -/
theorem PiecesRead.piece (P : Nat → Nat → α) : ∀ (xs : List ((s : Shape) × (s.Idx → α))) (pre : Nat),
    PiecesRead P pre xs → ∀ (k : Nat) (hk : k < xs.length), ∃ h2 : xs[k].1.rank = 2, ∀ i : xs[k].1.Idx,
      xs[k].2 i = P (i (Fin.cast h2.symm 0)).val
        (pre + ((xs.take k).map fun p => width p.1).sum + (i (Fin.cast h2.symm 1)).val)
  | [], _, _, k, hk => absurd hk (by simp)
  | p :: xs, pre, H, 0, _ => by
    have H' : (∃ h : p.1.rank = 2, ∀ i : p.1.Idx,
        p.2 i = P (i (Fin.cast h.symm 0)).val (pre + (i (Fin.cast h.symm 1)).val))
        ∧ PiecesRead P (pre + width p.1) xs := H
    obtain ⟨h2, hi⟩ := H'.1
    exact ⟨h2, fun i => by simpa using hi i⟩
  | p :: xs, pre, H, k + 1, hk => by
    have H' : (∃ h : p.1.rank = 2, ∀ i : p.1.Idx,
        p.2 i = P (i (Fin.cast h.symm 0)).val (pre + (i (Fin.cast h.symm 1)).val))
        ∧ PiecesRead P (pre + width p.1) xs := H
    have hk' : k < xs.length := by simpa using hk
    obtain ⟨h2, hi⟩ := PiecesRead.piece P xs (pre + width p.1) H'.2 k hk'
    refine ⟨h2, fun i => ?_⟩
    have e := hi i
    simp only [List.take_succ_cons, List.map_cons, List.sum_cons]
    have ea : pre + (width p.1 + ((xs.take k).map fun p => width p.1).sum)
        = pre + width p.1 + ((xs.take k).map fun p => width p.1).sum := by omega
    rw [ea]
    exact e

/-- A concatenation along the columns whose pieces all read as `P` is `P`. -/
theorem concatenate_cols_apply {sz : Fin 2 → Nat} (xs : List ((s : Shape) × (s.Idx → α)))
    (h : Shape.Concatenates (xs.map (·.1)) ⟨2, sz⟩ 1) (P : Nat → Nat → α) (H : PiecesRead P 0 xs)
    (j : (⟨2, sz⟩ : Shape).Idx) : concatenate ⟨2, sz⟩ 1 xs h j = P (j 0).val (j 1).val := by
  -- the extents of the pieces along the axis are their widths, and sum to the extent of the result
  have hsum : ((xs.map (·.1)).map width).sum = sz 1 := h.2.2
  have hc : (j 1).val < ((xs.map (·.1)).map width).sum := by rw [hsum]; exact (j 1).isLt
  obtain ⟨k, hk, lo, hi⟩ := exists_span _ _ hc
  have hk' : k < xs.length := by simpa using hk
  obtain ⟨h2, Hk⟩ := PiecesRead.piece P xs 0 H k hk'
  -- the widths before piece `k`, and its own
  have hpre : ((xs.map (·.1)).map width).take k = (xs.take k).map fun p => width p.1 := by
    rw [List.map_map, List.map_take]; rfl
  have hnk : ((xs.map (·.1)).map width)[k] = width xs[k].1 := by simp
  rw [hpre] at lo hi
  rw [hnk] at hi
  have hw : width xs[k].1 = xs[k].1.size (Fin.cast h2.symm 1) := by unfold width; rw [dif_pos h2]
  -- off the axis the piece has the extent of the result
  have hm : xs[k].1 ∈ xs.map (·.1) := List.mem_map.2 ⟨_, List.getElem_mem hk', rfl⟩
  obtain ⟨h2', hb⟩ := h.2.1 _ hm
  have hoff : xs[k].1.size (Fin.cast h2.symm 0) = sz 0 := hb 0 (show (0 : Fin 2) ≠ 1 by decide)
  -- the index of piece `k`: the row of `j`, and the column of `j` less the widths before the piece
  have hlt1 : (j 1).val - ((xs.take k).map fun p => width p.1).sum < xs[k].1.size (Fin.cast h2.symm 1) := by
    rw [← hw]; omega
  have hlt0 : (j 0).val < xs[k].1.size (Fin.cast h2.symm 0) := by rw [hoff]; exact (j 0).isLt
  let i : xs[k].1.Idx := fun b =>
    if hb1 : b.cast h2 = 1 then
      ⟨(j 1).val - ((xs.take k).map fun p => width p.1).sum, by
        have e : b = Fin.cast h2.symm 1 := by
          apply Fin.ext
          have hv : (b.cast h2).val = (1 : Fin 2).val := congrArg Fin.val hb1
          exact hv
        rw [e]; exact hlt1⟩
    else
      ⟨(j 0).val, by
        have e : b = Fin.cast h2.symm 0 := by
          apply Fin.ext
          have hv : (b.cast h2).val ≠ 1 := fun hv => hb1 (Fin.ext hv)
          have := (b.cast h2).isLt
          show (b.cast h2).val = 0
          omega
        rw [e]; exact hlt0⟩
  have e0 : (i (Fin.cast h2.symm 0)).val = (j 0).val := by
    have hne : ¬ (Fin.cast h2.symm 0 : Fin xs[k].1.rank).cast h2 = 1 := fun e =>
      absurd (show (0 : Nat) = 1 from congrArg Fin.val e) (by decide)
    simp only [i, dif_neg hne]
  have e1 : (i (Fin.cast h2.symm 1)).val = (j 1).val - ((xs.take k).map fun p => width p.1).sum := by
    have heq : (Fin.cast h2.symm 1 : Fin xs[k].1.rank).cast h2 = 1 := rfl
    simp only [i, dif_pos heq]
  -- the concatenation reads piece `k` at that index, and the piece reads as `P`
  have hcat := concatenate_apply_piece (t := ⟨2, sz⟩) 1 xs h j k hk' xs[k].1 xs[k].2 rfl h2
    (((xs.take k).map fun p => width p.1).sum) (by rw [List.map_map]; rfl) i
    (fun b hbn => by
      have hv : (b.cast h2).val ≠ 1 := fun hv => hbn (Fin.ext hv)
      have := (b.cast h2).isLt
      have e : b = Fin.cast h2.symm 0 := by
        apply Fin.ext
        show (b.cast h2).val = 0
        omega
      rw [e, e0]; rfl)
    (by
      show ((xs.take k).map fun p => width p.1).sum + (i (Fin.cast h2.symm 1)).val = (j 1).val
      rw [e1]; omega)
  rw [hcat, Hk i, e0, e1]
  congr 1
  omega

end Idealize.ShloMosaic.ConcatCols

end
-- ==== Proof.LibGramRead.lean ====
/-
  The Gram contraction read at an index.

  For stacks `A`, `B` of `n` matrices with `p` rows of length `k`, contracting the rows' coordinate and pairing the
  stacks member by member gives, at `(b, f, g)`, the inner product of row `f` of `A`'s member `b` with row `g` of
  `B`'s member `b`: the sum over the contracted coordinate of the products.  Stated for the accumulating product into
  a zero accumulator and for the plain one, at the exact values.
-/
import Idealize.ShloMosaic.Lib.ValueIdx
import Idealize.ShloMosaic.PureOps.Ideal.Laws

noncomputable section

namespace Idealize.ShloMosaic.GramRead

open Idealize.ShloMosaic.ValueIdx

variable {n p k : Nat} {φ₁ φ₂ : FTy}

/-- The dimension numbers: batch axes 0 and 0, contracting axes 2 and 2, free axes 1 and 1. -/
abbrev dims (w : DotDims.WF ⟨3, ![n, p, k]⟩ ⟨3, ![n, p, k]⟩ ⟨3, ![n, p, p]⟩ [2] [2] [1] [1] [0] [0]) :
    DotDims ⟨3, ![n, p, k]⟩ ⟨3, ![n, p, k]⟩ ⟨3, ![n, p, p]⟩ := ⟨[2], [2], [1], [1], [0], [0], w⟩

theorem lhsIdx_eq (w : DotDims.WF ⟨3, ![n, p, k]⟩ ⟨3, ![n, p, k]⟩ ⟨3, ![n, p, p]⟩ [2] [2] [1] [1] [0] [0])
    (b : Fin n) (f g : Fin p) (c : Fin k) :
    (dims w).lhsIdx (ix3 b f g) ((contrEquiv1 (dims w) k rfl rfl).symm c) = ix3 b f c := by
  have c3 := contrEquiv1_symm_val (dims w) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

theorem rhsIdx_eq (w : DotDims.WF ⟨3, ![n, p, k]⟩ ⟨3, ![n, p, k]⟩ ⟨3, ![n, p, p]⟩ [2] [2] [1] [1] [0] [0])
    (b : Fin n) (f g : Fin p) (c : Fin k) :
    (dims w).rhsIdx (ix3 b f g) ((contrEquiv1 (dims w) k rfl rfl).symm c) = ix3 b g c := by
  have c3 := contrEquiv1_symm_val (dims w) k rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The accumulating product into zero, at `(b, f, g)`: the inner product of the two rows. -/
theorem matmul_zero_apply (w : DotDims.WF ⟨3, ![n, p, k]⟩ ⟨3, ![n, p, k]⟩ ⟨3, ![n, p, p]⟩ [2] [2] [1] [1] [0] [0])
    (prec : Option ContractPrecision) (A : FVec Ideal ⟨3, ![n, p, k]⟩ φ₁) (B : FVec Ideal ⟨3, ![n, p, k]⟩ φ₂)
    (b : Fin n) (f g : Fin p) :
    FloatOps.matmul (dims w) prec A B (constant ⟨3, ![n, p, p]⟩ .f32 0x00000000#32) (ix3 b f g)
      = ∑ c : Fin k, A (ix3 b f c) * B (ix3 b g c) := by
  rw [Ideal.matmul_constant_zero_apply, ← Equiv.sum_comp (contrEquiv1 (dims w) k rfl rfl).symm]
  refine Finset.sum_congr rfl fun c _ => ?_
  rw [lhsIdx_eq, rhsIdx_eq]

/-- The plain product, at `(b, f, g)`: the same inner product. -/
theorem dotGeneral_apply (w : DotDims.WF ⟨3, ![n, p, k]⟩ ⟨3, ![n, p, k]⟩ ⟨3, ![n, p, p]⟩ [2] [2] [1] [1] [0] [0])
    (prec : Option ContractPrecision) (sched : HostSchedule) (A : FVec Ideal ⟨3, ![n, p, k]⟩ φ₁) (B : FVec Ideal ⟨3, ![n, p, k]⟩ φ₂)
    (b : Fin n) (f g : Fin p) :
    FloatOps.dotGeneral (dims w) prec sched A B (ix3 b f g) = ∑ c : Fin k, A (ix3 b f c) * B (ix3 b g c) := by
  rw [Ideal.dotGeneral_apply, ← Equiv.sum_comp (contrEquiv1 (dims w) k rfl rfl).symm]
  refine Finset.sum_congr rfl fun c _ => ?_
  rw [lhsIdx_eq, rhsIdx_eq]

end Idealize.ShloMosaic.GramRead

end
-- ==== Proof.KernelBlock.lean ====
/-
  What the kernel's body leaves in one output block.

  The body reads a block of 256 samples (each a row of 2048 = 64 x 32 numbers: 64 field vectors of 32 coordinates),
  forms each sample's 64 x 64 Gram matrix, lays it flat (4096 columns: entry (f, g) at column 64 f + g), and packs the
  strict upper triangle: 63 slices of the flat rows, slice f being columns 65 f + 1 ... 64 f + 63, laid side by side.
  So column q of the packed row is the flat column `flatCol q`, that is, the Gram entry (fI q, fJ q): the inner product
  of field vectors fI q and fJ q of the sample (`out_apply`).
-/
import proofs.«403513_j5970004542170_3_alg».proof.Proof.Gen.KernelIdeal.Frame
import proofs.«403513_j5970004542170_3_alg».proof.Proof.PairSpec
import proofs.«403513_j5970004542170_3_alg».proof.Proof.LibConcatCols
import proofs.«403513_j5970004542170_3_alg».proof.Proof.LibGramRead
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Cert.Pairs

theorem hz : (![0, 0] : Fin 2 → Nat) = fun _ => 0 := funext fun a => by fin_cases a <;> rfl

/-- The block's rows cut into 64 field vectors of 32 coordinates: coordinate `d` of field vector `e` of sample `r` is
    entry `32 e + d` of row `r` (the change of float format in between is the identity at the exact values). -/
theorem fields_apply (x0 : FVec Ideal S256x2048 .f32) (r : Fin 256) (e : Fin 64) (d : Fin 32) (he : 32 * e.val + d.val < 2048) :
    shapeCast S256x64x32 (truncf (F := Ideal) (φ := .f32) .bf16 (shapeCast S256x2048 x0 shapeCasts_S256x2048_S256x2048) bitsLt_bf16_f32)
      shapeCasts_S256x2048_S256x64x32 (ix3 r e d) = x0 (ix2 r ⟨32 * e.val + d.val, he⟩) := by
  refine (shapeCast_apply _ _ (ix3 r e d) (ix2 r ⟨32 * e.val + d.val, he⟩) ?_).trans ?_
  · rw [Shape.rowMajor_val_three, Shape.rowMajor_val_two]
    show r.val * 2048 + (32 * e.val + d.val) = (r.val * 64 + e.val) * 32 + d.val
    omega
  · rw [shapeCast_self]; rfl

/-- The flat Gram block at row `r` and column `64 f + g`: the inner product of field vectors `f` and `g` of sample `r`. -/
theorem flatGram_apply (x0 : Vec Ideal S256x2048 .f32) (r : Fin 256) (f g : Fin 64) (c : Fin 4096)
    (hc : c.val = 64 * f.val + g.val) :
    k0_pay2 (F := Ideal) x0 (ix2 r c)
      = ∑ d : Fin 32, x0 (ix2 r ⟨32 * f.val + d.val, by omega⟩) * x0 (ix2 r ⟨32 * g.val + d.val, by omega⟩) := by
  unfold k0_pay2
  refine (shapeCast_apply _ _ (ix2 r c) (ix3 r f g) ?_).trans ?_
  · rw [Shape.rowMajor_val_three, Shape.rowMajor_val_two]
    show ((r.val * 64 + f.val) * 64 + g.val) = r.val * 4096 + c.val
    omega
  · refine (GramRead.matmul_zero_apply (n := 256) (p := 64) (k := 32)
      dot_S256x64x32_S256x64x32_S256x64x64_2_2_1_1_0_0_wf none _ _ r f g).trans ?_
    refine Finset.sum_congr rfl fun d _ => ?_
    rw [fields_apply x0 r f d (by omega), fields_apply x0 r g d (by omega)]

/-- The packed row as one function of the row and the column: the flat Gram block at the flat column of the pair. -/
def packed (x0 : Vec Ideal S256x2048 .f32) (r q : Nat) : Ideal .f32 :=
  k0_pay2 (F := Ideal) x0 (ix2 ⟨r % 256, Nat.mod_lt _ (by decide)⟩ ⟨flatCol q, flatCol_lt q⟩)

set_option maxHeartbeats 4000000 in
set_option maxRecDepth 65536 in
/-- The 63 slices laid side by side are `packed`: slice `f` starts at packed column `start f` and at flat column
    `65 f + 1`, which is where `flatCol` sends that stretch of packed columns. -/
theorem out_eq_packed (x0 : Vec Ideal S256x2048 .f32) (j : S256x2016.Idx) :
    out0_1 (F := Ideal) x0 j = packed x0 (j 0).val (j 1).val := by
  unfold out0_1
  rw [View.canon_unit_zero hz]
  simp only [View.ld_unit_zero (S := S256x2048) hz]
  unfold k0_pay1
  try dsimp only
  refine ConcatCols.concatenate_cols_apply _ _ (packed x0) ?_ j
  simp only [ConcatCols.PiecesRead, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    refine ⟨trivial, fun i => ?_⟩
    unfold packed
    refine extractStridedSlice_apply _ _ _ i _ (fun a => ?_)
    match a with
    | ⟨0, _⟩ =>
      have hi : (i 0).val < 256 := (i 0).isLt
      show (i 0).val % 256 = 0 + (i 0).val
      omega
    | ⟨1, _⟩ =>
      show flatCol (_ + (i 1).val) = (![0, _] : Fin 2 → Nat) 1 + (i 1).val
      generalize i 1 = u
      revert u
      decide +kernel

/-- Entry `(r, q)` of the output block: the inner product of field vectors `fI q` and `fJ q` of sample `r`. -/
theorem out_apply (x0 : Vec Ideal S256x2048 .f32) (r : Fin 256) (q : Fin 2016) :
    out0_1 (F := Ideal) x0 (ix2 r q)
      = ∑ d : Fin 32, x0 (ix2 r ⟨32 * (fI q.val).val + d.val, by have := (fI q.val).isLt; omega⟩)
          * x0 (ix2 r ⟨32 * (fJ q.val).val + d.val, by have := (fJ q.val).isLt; omega⟩) := by
  rw [out_eq_packed]
  unfold packed
  have hr : (⟨((ix2 r q : S256x2016.Idx) 0).val % 256, Nat.mod_lt _ (by decide)⟩ : Fin 256) = r :=
    Fin.ext (Nat.mod_eq_of_lt r.isLt)
  rw [hr]
  exact flatGram_apply x0 r (fI q.val) (fJ q.val) ⟨flatCol q.val, flatCol_lt q.val⟩ (flatCol_eq q.val)

end Cert.KernelIdeal.Hand

end
-- ==== Proof.KernelArray.lean ====
/-
  From the output blocks to the whole result array.

  The kernel runs over 64 grid points; point t reads rows 256 t ... 256 t + 255 of the flat operand (each sample's
  64 x 32 numbers in one row of 2048: the argument reshaped, so entry (b, 32 f + d) of the flat operand is entry
  (b, f, d) of the argument) and writes rows 256 t ... 256 t + 255 of the result.  Each written block is the packed
  Gram rows of its samples (`Hand.out_apply`), the blocks tile the result, so the result array ends as `Pairs.G` of
  the argument.
-/
import proofs.«403513_j5970004542170_3_alg».proof.Proof.Gen.KernelIdeal.Value
import proofs.«403513_j5970004542170_3_alg».proof.Proof.KernelBlock
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Pairs
open Idealize.ShloMosaic.Pipeline (Dat)

variable (m : (ℓ : Loc nD τ sig) → Buf (Elt Ideal) ℓ) (ρ : Dev nD → PrngReg)

/-- Both windows move down the rows with the grid point and stay at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The flat operand the region finds is the argument reshaped. -/
theorem V_flat (c : Dev nD) : (V m c main_v0 : S16384x2048.Idx → Ideal .f32)
    = shapeCast S16384x2048 (m ((c : Thread nD τ).loc main_arg0) : S16384x64x32.Idx → Ideal .f32) shapeCasts_S16384x64x32_S16384x2048 := by
  dsimp only [Gen.V, Gen.hostOps0]
  after_results
  rfl

/-- Entry `(b, 32 f + d)` of the flat operand is entry `(b, f, d)` of the argument. -/
theorem V_flat_apply (c : Dev nD) (b : Fin 16384) (f : Fin 64) (d : Fin 32) (k : Fin 2048) (hk : k.val = 32 * f.val + d.val) :
    (V m c main_v0 : S16384x2048.Idx → Ideal .f32) (ix2 b k)
      = (m ((c : Thread nD τ).loc main_arg0) : S16384x64x32.Idx → Ideal .f32) (ix3 b f d) := by
  rw [V_flat]
  refine shapeCast_apply _ _ (ix2 b k) (ix3 b f d) ?_
  rw [Shape.rowMajor_val_three, Shape.rowMajor_val_two]
  show (b.val * 64 + f.val) * 32 + d.val = b.val * 2048 + k.val
  omega

/-- Row `r` of the input block at point `t` is row `256 t + r` of the flat operand. -/
theorem iblk_apply (c : Dev nD) (t : Fin cfg0.N) (y : S256x2048.Idx) (b : Fin 16384) (hb : b.val = 256 * t.val + (y 0).val) :
    (iblk m c 0 t : Vec Ideal S256x2048 .f32) y = (V m c main_v0 : S16384x2048.Idx → Ideal .f32) (ix2 b (y 1)) := by
  obtain ⟨e0, e1, -, -⟩ := idx_facts t
  unfold iblk
  rw [View.read_apply]
  show V m c main_v0 _ = V m c main_v0 _
  congr 1
  funext a
  apply Fin.ext
  match a with
  | ⟨0, _⟩ => show win0_0.index t 0 * 256 + 1 * (y 0).val = b.val; rw [e0, hb]; omega
  | ⟨1, _⟩ => show win0_0.index t 1 * 2048 + 1 * (y 1).val = (y 1).val; rw [e1]; omega

/-- Entry `j` of the block point `t` writes is entry `(256 t + j 0, j 1)` of the packed Gram rows of the argument. -/
theorem block_value (c : Dev nD) (t : Fin cfg0.N) (j : S256x2016.Idx) (i : S16384x2016.Idx)
    (h0 : (i 0).val = 256 * t.val + (j 0).val) (h1 : (i 1).val = (j 1).val) :
    out0_1 (F := Ideal) (iblk m c 0 t) j = G (m ((c : Thread nD τ).loc main_arg0)) i := by
  obtain ⟨r, q, rfl⟩ : ∃ (r : Fin 256) (q : Fin 2016), j = ix2 r q := ⟨j 0, j 1, eq_ix2 j⟩
  refine (out_apply (iblk m c 0 t) r q).trans ?_
  unfold G
  have hq : (i 1).val = q.val := h1
  refine Finset.sum_congr rfl fun d _ => ?_
  have rd : ∀ (e : Fin 64) (he : 32 * e.val + d.val < 2048),
      (iblk m c 0 t : Vec Ideal S256x2048 .f32) (ix2 r ⟨32 * e.val + d.val, he⟩)
        = (m ((c : Thread nD τ).loc main_arg0) : S16384x64x32.Idx → Ideal .f32) (ix3 (i 0) e d) := fun e he =>
    (iblk_apply m c t (ix2 r ⟨32 * e.val + d.val, he⟩) (i 0) h0).trans
      (V_flat_apply m c (i 0) e d ⟨32 * e.val + d.val, he⟩ rfl)
  rw [rd, rd, hq]

/-- What point `t` writes back is block `t` of the packed Gram rows of the argument. -/
theorem flushed_eq (c : Dev nD) (t : Fin cfg0.N) :
    (dats m 0 c).flushed 1 t = ((cfg0.win 1).blk t).view.read (Elt Ideal) (G (m ((c : Thread nD τ).loc main_arg0))) := by
  rw [Cert.KernelIdeal.Value.flushed1]
  obtain ⟨-, -, e2, e3⟩ := idx_facts t
  funext j
  show out0_1 (F := Ideal) (iblk m c 0 t) j = G (m ((c : Thread nD τ).loc main_arg0)) (((cfg0.win 1).blk t).view.emb j)
  refine block_value m c t j _ ?_ ?_
  · show win0_1.index t 0 * 256 + 1 * (j 0).val = 256 * t.val + (j 0).val
    rw [e2]; omega
  · show win0_1.index t 1 * 2016 + 1 * (j 1).val = (j 1).val
    rw [e3]; omega

/-- An index of the result is in point `t`'s block iff each coordinate is in the block's range on its axis. -/
theorem mem_blk (t : Fin cfg0.N) (i : S16384x2016.Idx) :
    i ∈ ((cfg0.win 1).blk t).view.set ↔ ∀ a : Fin 2, win0_1.index t a * S256x2016.size a ≤ (i a).val
      ∧ (i a).val < win0_1.index t a * S256x2016.size a + S256x2016.size a := by
  show i ∈ ((View.whole main_v1).slice (win0_1.rect t)).set ↔ _
  rw [View.set_slice_whole, Rect.mem_set_unit]
  exact Iff.rfl

/-- The result array after the run: the packed Gram rows of the argument. -/
theorem final (c : Dev nD) : (dats m 0 c).arrAt 1 cfg0.N = G (m ((c : Thread nD τ).loc main_arg0)) :=
  (dats m 0 c).arrAt_eq_of_cover 1 (G (m ((c : Thread nD τ).loc main_arg0))) (fun t _ => flushed_eq m c t) fun i => by
    have hi0 : (i 0).val < 16384 := (i 0).isLt
    have hi1 : (i 1).val < 2016 := (i 1).isLt
    have hN : cfg0.N = 64 := N_0
    let t : Fin cfg0.N := ⟨(i 0).val / 256, by rw [hN]; omega⟩
    obtain ⟨-, -, e2, e3⟩ := idx_facts t
    have ht : t.val = (i 0).val / 256 := rfl
    refine ⟨t, flush0_1 t, ?_⟩
    rw [mem_blk]
    intro a
    match a with
    | ⟨0, _⟩ =>
      show win0_1.index t 0 * 256 ≤ (i 0).val ∧ (i 0).val < win0_1.index t 0 * 256 + 256
      rw [e2, ht]; omega
    | ⟨1, _⟩ =>
      show win0_1.index t 1 * 2016 ≤ (i 1).val ∧ (i 1).val < win0_1.index t 1 * 2016 + 2016
      rw [e3]; omega

/-- Every weakly fair execution of the kernel ends with its result at the packed Gram rows of its argument, the
    argument unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Hand

end
-- ==== Proof.RefRun.lean ====
/-
  The reference's straight line of host operations as a list, and its run read back: the result buffer holds the
  gather, at the composed table of index pairs, of the batched product of the argument with itself.
-/
import proofs.«403513_j5970004542170_3_alg».proof.Defs
import proofs.«403513_j5970004542170_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The table of row numbers, as an integer vector. -/
def tab0 : IVec S2016 32 := fun i => lit0 (S2016.rowMajor i)
/-- The table of column numbers, as an integer vector. -/
def tab1 : IVec S2016 32 := fun i => lit1 (S2016.rowMajor i)

/-- A table entry wrapped into the 64 rows when negative: x < 0 ? x + 64 : x. -/
def wrap (t : IVec S2016 32) : IVec S2016 32 :=
  select (cmpi .slt t (broadcastInDim S2016 ![] bcast_S_S2016 (constantI S_ 32 0#32)))
    (addi t (broadcastInDim S2016 ![] bcast_S_S2016 (constantI S_ 32 64#32))) t

/-- The index table: row q holds the pair (wrapped row number, wrapped column number). -/
def idxTable : IVec S2016x2 32 :=
  concatenate S2016x2 1 [⟨S2016x1, broadcastInDim S2016x1 ![0] bcast_S2016_S2016x1_0 (wrap tab0)⟩,
    ⟨S2016x1, broadcastInDim S2016x1 ![0] bcast_S2016_S2016x1_0 (wrap tab1)⟩] concatenates_S2016x1_S2016x1_S2016x2_d1

/-- @main's 21 operations, in order. -/
abbrev ops : List (HloOp τ sig (Elt F)) :=
  [ nullary main_c (fun i => lit0 (S2016.rowMajor i)),
    nullary main_c_0 (fun i => lit1 (S2016.rowMajor i)),
    binary main_arg0 main_arg0 main_v0 ((fun l r => Host.dotGeneral dot_S16384x64x32_S16384x64x32_S16384x64x64_2_2_1_1_0_0 none l r) : (⟨S16384x64x32, .f32⟩ : BufTy).Contents (Elt F) → (⟨S16384x64x32, .f32⟩ : BufTy).Contents (Elt F) → (⟨S16384x64x64, .f32⟩ : BufTy).Contents (Elt F)),
    nullary main_c_1 (constantI S_ 32 0#32),
    unary main_c_1 main_v1 (broadcastInDim S2016 ![] bcast_S_S2016 : (⟨S_, .i32⟩ : BufTy).Contents (Elt F) → (⟨S2016, .i32⟩ : BufTy).Contents (Elt F)),
    binary main_c main_v1 main_v2 (cmpi .slt : (⟨S2016, .i32⟩ : BufTy).Contents (Elt F) → (⟨S2016, .i32⟩ : BufTy).Contents (Elt F) → (⟨S2016, .i1⟩ : BufTy).Contents (Elt F)),
    nullary main_c_2 (constantI S_ 32 64#32),
    unary main_c_2 main_v3 (broadcastInDim S2016 ![] bcast_S_S2016 : (⟨S_, .i32⟩ : BufTy).Contents (Elt F) → (⟨S2016, .i32⟩ : BufTy).Contents (Elt F)),
    binary main_c main_v3 main_v4 (addi : (⟨S2016, .i32⟩ : BufTy).Contents (Elt F) → (⟨S2016, .i32⟩ : BufTy).Contents (Elt F) → (⟨S2016, .i32⟩ : BufTy).Contents (Elt F)),
    ternary main_v2 main_v4 main_c main_v5 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_3 (constantI S_ 32 0#32),
    unary main_c_3 main_v6 (broadcastInDim S2016 ![] bcast_S_S2016 : (⟨S_, .i32⟩ : BufTy).Contents (Elt F) → (⟨S2016, .i32⟩ : BufTy).Contents (Elt F)),
    binary main_c_0 main_v6 main_v7 (cmpi .slt : (⟨S2016, .i32⟩ : BufTy).Contents (Elt F) → (⟨S2016, .i32⟩ : BufTy).Contents (Elt F) → (⟨S2016, .i1⟩ : BufTy).Contents (Elt F)),
    nullary main_c_4 (constantI S_ 32 64#32),
    unary main_c_4 main_v8 (broadcastInDim S2016 ![] bcast_S_S2016 : (⟨S_, .i32⟩ : BufTy).Contents (Elt F) → (⟨S2016, .i32⟩ : BufTy).Contents (Elt F)),
    binary main_c_0 main_v8 main_v9 (addi : (⟨S2016, .i32⟩ : BufTy).Contents (Elt F) → (⟨S2016, .i32⟩ : BufTy).Contents (Elt F) → (⟨S2016, .i32⟩ : BufTy).Contents (Elt F)),
    ternary main_v7 main_v9 main_c_0 main_v10 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v5 main_v11 (broadcastInDim S2016x1 ![0] bcast_S2016_S2016x1_0 : (⟨S2016, .i32⟩ : BufTy).Contents (Elt F) → (⟨S2016x1, .i32⟩ : BufTy).Contents (Elt F)),
    unary main_v10 main_v12 (broadcastInDim S2016x1 ![0] bcast_S2016_S2016x1_0 : (⟨S2016, .i32⟩ : BufTy).Contents (Elt F) → (⟨S2016x1, .i32⟩ : BufTy).Contents (Elt F)),
    binary main_v11 main_v12 main_v13 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v13 main_v14 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
   nullary_bufs_sub .., unary_bufs_sub .., binary_bufs_sub .., ternary_bufs_sub .., nullary_bufs_sub .., unary_bufs_sub ..,
   binary_bufs_sub .., nullary_bufs_sub .., unary_bufs_sub .., binary_bufs_sub .., ternary_bufs_sub .., unary_bufs_sub ..,
   unary_bufs_sub .., binary_bufs_sub .., binary_bufs_sub ..⟩

/-- Every weakly fair execution of @main terminates with the result at the gather, by the index table, of the
    batched product of the argument with itself, and the argument unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) =
        Host.gather gather_S16384x64x64_S2016x2_S16384x2016_0_12_n_n_12_1_1638411
          (Host.dotGeneral dot_S16384x64x32_S16384x64x32_S16384x64x64_2_2_1_1_0_0 none
            (m ((c.tc : Thread nD τ).loc main_arg0)) (m ((c.tc : Thread nD τ).loc main_arg0))) idxTable
      ∧ r.2.mem ((c.tc : Thread nD τ).loc main_arg0) = m ((c.tc : Thread nD τ).loc main_arg0) :=
  (θ_run defs _ _).mono (fun _ h c => ⟨(h c main_v14).trans (by after_results; rfl),
      (h c main_arg0).trans (by after_results)⟩)
    (run_seq scopedRefs_eq scopedSems_eq defs main (fun _ => ops) main_eq (fun _ => ops_sub) m ρ)

end Cert.ReferenceIdeal.Hand

end
-- ==== Proof.RefTable.lean ====
/-
  The reference's index table read entry by entry: row q holds (fI q, fJ q), the q-th pair f < g of the strict upper
  triangle taken row by row.  The two literal tables hold the row and column numbers; wrapping a negative entry by 64
  changes nothing since none is negative; the two columns stood side by side make the table.
-/
import proofs.«403513_j5970004542170_3_alg».proof.Proof.RefRun
import proofs.«403513_j5970004542170_3_alg».proof.Proof.PairSpec
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx Cert.Pairs

set_option maxRecDepth 100000 in
/-- Entry q of the wrapped table of row numbers is the row of pair q: checked entry by entry. -/
theorem wrap0_eq : ∀ q : Fin 2016, wrap tab0 (ix1 q) = BitVec.ofNat 32 (fI q.val).val := by
  decide +kernel

set_option maxRecDepth 100000 in
/-- Entry q of the wrapped table of column numbers is the column of pair q: checked entry by entry. -/
theorem wrap1_eq : ∀ q : Fin 2016, wrap tab1 (ix1 q) = BitVec.ofNat 32 (fJ q.val).val := by
  decide +kernel

/-- A vector stood up as a column reads, at (q, 0), the vector at q. -/
theorem col_apply (v : IVec S2016 32) (i : S2016x1.Idx) :
    broadcastInDim S2016x1 ![0] bcast_S2016_S2016x1_0 v i = v (ix1 (i 0)) := by
  unfold broadcastInDim
  congr 1
  funext a
  match a with
  | ⟨0, _⟩ => rfl

/-- Column 0 of the index table is the wrapped table of row numbers. -/
theorem idxTable_0 (q : Fin 2016) : idxTable (ix2 q (0 : Fin 2)) = wrap tab0 (ix1 q) := by
  unfold idxTable
  rw [concatenate_pair_apply_left (t := S2016x2) (s₁ := S2016x1) (s₂ := S2016x1) (1 : Fin 2) _ _
    concatenates_S2016x1_S2016x1_S2016x2_d1 (ix2 q (0 : Fin 2)) rfl
    (i := (ix2 q (0 : Fin 1) : S2016x1.Idx)) (fun b => by match b with | ⟨0, _⟩ => rfl | ⟨1, _⟩ => rfl), col_apply]

/-- Column 1 of the index table is the wrapped table of column numbers. -/
theorem idxTable_1 (q : Fin 2016) : idxTable (ix2 q (1 : Fin 2)) = wrap tab1 (ix1 q) := by
  unfold idxTable
  rw [concatenate_pair_apply_right (t := S2016x2) (s₁ := S2016x1) (s₂ := S2016x1) (1 : Fin 2) _ _
    concatenates_S2016x1_S2016x1_S2016x2_d1 (ix2 q (1 : Fin 2)) rfl rfl
    (i := (ix2 q (0 : Fin 1) : S2016x1.Idx)) (fun b hb => by match b with | ⟨0, _⟩ => rfl | ⟨1, _⟩ => exact absurd rfl hb) rfl, col_apply]

/-- Entry (q, 0) of the index table is the row number of pair q. -/
theorem idxTable_row (q : Fin 2016) : idxTable (ix2 q (0 : Fin 2)) = BitVec.ofNat 32 (fI q.val).val := by
  rw [idxTable_0, wrap0_eq]

/-- Entry (q, 1) of the index table is the column number of pair q. -/
theorem idxTable_col (q : Fin 2016) : idxTable (ix2 q (1 : Fin 2)) = BitVec.ofNat 32 (fJ q.val).val := by
  rw [idxTable_1, wrap1_eq]

/-- A number below 64 written as a 32-bit word, read signed and clamped to 63, is itself. -/
theorem clamp_ofNat (n : Fin 64) : min (BitVec.ofNat 32 n.val).toInt.toNat 63 = n.val := by
  revert n; decide

end Cert.ReferenceIdeal.Hand

end
-- ==== Proof.RefGram.lean ====
/-
  The reference computes the packed Gram rows: its result at (b, q) is the gather, at the pair (fI q, fJ q) the index
  table holds for q, of the batched product of the argument with itself, which at (b, f, g) is the inner product over the
  32 coordinates of field vectors f and g of sample b.
-/
import proofs.«403513_j5970004542170_3_alg».proof.Defs
import proofs.«403513_j5970004542170_3_alg».proof.Proof.Gen.ReferenceIdeal
import proofs.«403513_j5970004542170_3_alg».proof.Proof.PairSpec
import proofs.«403513_j5970004542170_3_alg».proof.Proof.RefRun
import proofs.«403513_j5970004542170_3_alg».proof.Proof.RefTable
import Idealize.ShloMosaic.Lib.StableHlo.Run
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
section Helpers

open Idealize.ShloMosaic.ValueIdx Cert.Pairs
open scoped BigOperators

/-- The gather's dimension numbers. -/
abbrev gd : GatherDims S16384x64x64 S2016x2 S16384x2016 := gather_S16384x64x64_S2016x2_S16384x2016_0_12_n_n_12_1_1638411
/-- The product's dimension numbers. -/
abbrev dd : DotDims S16384x64x32 S16384x64x32 S16384x64x64 := dot_S16384x64x32_S16384x64x32_S16384x64x64_2_2_1_1_0_0

/-! ## The gather at a result position -/

theorem mem1 : (1 : Fin 3) ∈ gd.startIndexMap := by decide
theorem mem2 : (2 : Fin 3) ∈ gd.startIndexMap := by decide

/-- Component 0 of the start index of result position (b, q) is entry (q, 0) of the table. -/
theorem siIdx_0 (b : Fin 16384) (q : Fin 2016) :
    gd.siIdx (ix2 b q) ⟨gd.startIndexMap.idxOf (1 : Fin 3), List.idxOf_lt_length_iff.2 mem1⟩ = ix2 q (0 : Fin 2) := by
  funext a
  match a with
  | ⟨0, _⟩ => rfl
  | ⟨1, _⟩ => rfl

/-- Component 1 of the start index of result position (b, q) is entry (q, 1) of the table. -/
theorem siIdx_1 (b : Fin 16384) (q : Fin 2016) :
    gd.siIdx (ix2 b q) ⟨gd.startIndexMap.idxOf (2 : Fin 3), List.idxOf_lt_length_iff.2 mem2⟩ = ix2 q (1 : Fin 2) := by
  funext a
  match a with
  | ⟨0, _⟩ => rfl
  | ⟨1, _⟩ => rfl

/-- The operand position the gather reads for result position (b, q): sample b, row and column the two table entries
    of q, read signed and clamped into the 64 rows. -/
theorem operandIdx_eq (idx : IVec S2016x2 32) (b : Fin 16384) (q : Fin 2016) :
    gd.operandIdx (ix2 b q) idx = ix3 b (⟨min (idx (ix2 q (0 : Fin 2))).toInt.toNat 63, by omega⟩ : Fin 64)
      (⟨min (idx (ix2 q (1 : Fin 2))).toInt.toNat 63, by omega⟩ : Fin 64) := by
  funext a
  refine Fin.ext ?_
  match a with
  | ⟨0, _⟩ =>
    show gd.start (ix2 b q) idx 0 + gd.batchCoord (ix2 b q) 0 + gd.offCoord (ix2 b q) 0 = b.val
    rw [GatherDims.batchCoord_eq_zero _ _ _ (by decide)]
    unfold GatherDims.start GatherDims.offCoord
    rw [dif_neg (by decide), dif_pos (by decide)]
    simp only [Nat.add_zero, Nat.zero_add]
    rfl
  | ⟨1, _⟩ =>
    show gd.start (ix2 b q) idx 1 + gd.batchCoord (ix2 b q) 1 + gd.offCoord (ix2 b q) 1 = _
    rw [GatherDims.batchCoord_eq_zero _ _ _ (by decide), GatherDims.offCoord_eq_zero _ _ _ (by decide)]
    unfold GatherDims.start
    rw [dif_pos mem1, siIdx_0]
    rfl
  | ⟨2, _⟩ =>
    show gd.start (ix2 b q) idx 2 + gd.batchCoord (ix2 b q) 2 + gd.offCoord (ix2 b q) 2 = _
    rw [GatherDims.batchCoord_eq_zero _ _ _ (by decide), GatherDims.offCoord_eq_zero _ _ _ (by decide)]
    unfold GatherDims.start
    rw [dif_pos mem2, siIdx_1]
    rfl

/-! ## The batched product at a position -/

theorem lhs_0 (j : S16384x64x64.Idx) (k : dd.contr.Idx) : (dd.lhsIdx j k 0).val = (j 0).val := by
  unfold DotDims.lhsIdx
  rw [dif_pos (show (0 : Fin 3) ∈ dd.lhsBatch by decide)]
  rfl
theorem lhs_1 (j : S16384x64x64.Idx) (k : dd.contr.Idx) : (dd.lhsIdx j k 1).val = (j 1).val := by
  unfold DotDims.lhsIdx
  rw [dif_neg (show ¬ (1 : Fin 3) ∈ dd.lhsBatch by decide), dif_pos (show (1 : Fin 3) ∈ dd.lhsNonContracting by decide)]
  rfl
theorem lhs_2 (j : S16384x64x64.Idx) (k : dd.contr.Idx) : (dd.lhsIdx j k 2).val = (k ⟨0, by decide⟩).val :=
  dd.lhsIdx_val_of_single (cl := 2) rfl j k
theorem rhs_0 (j : S16384x64x64.Idx) (k : dd.contr.Idx) : (dd.rhsIdx j k 0).val = (j 0).val := by
  unfold DotDims.rhsIdx
  rw [dif_pos (show (0 : Fin 3) ∈ dd.rhsBatch by decide)]
  rfl
theorem rhs_1 (j : S16384x64x64.Idx) (k : dd.contr.Idx) : (dd.rhsIdx j k 1).val = (j 2).val := by
  unfold DotDims.rhsIdx
  rw [dif_neg (show ¬ (1 : Fin 3) ∈ dd.rhsBatch by decide), dif_pos (show (1 : Fin 3) ∈ dd.rhsNonContracting by decide)]
  rfl
theorem rhs_2 (j : S16384x64x64.Idx) (k : dd.contr.Idx) : (dd.rhsIdx j k 2).val = (k ⟨0, by decide⟩).val :=
  dd.rhsIdx_val_of_single (cr := 2) rfl j k

/-- The batched product of the argument with itself at (b, f, g): the inner product over the 32 coordinates of field
    vectors f and g of sample b. -/
theorem dot_apply (x : FVec Ideal S16384x64x32 .f32) (b : Fin 16384) (f g : Fin 64) :
    Host.dotGeneral (F := Ideal) dd none x x (ix3 b f g) = ∑ k : Fin 32, x (ix3 b f k) * x (ix3 b g k) := by
  simp only [Host.dotGeneral]
  rw [Ideal.dotGeneral_apply, ← Equiv.sum_comp (contrEquiv1 dd 32 rfl rfl).symm]
  refine Finset.sum_congr rfl fun k _ => ?_
  have hk := contrEquiv1_symm_val dd 32 rfl rfl k
  have hl : dd.lhsIdx (ix3 b f g) ((contrEquiv1 dd 32 rfl rfl).symm k) = ix3 b f k := by
    funext a
    refine Fin.ext ?_
    match a with
    | ⟨0, _⟩ => exact lhs_0 _ _
    | ⟨1, _⟩ => exact lhs_1 _ _
    | ⟨2, _⟩ => exact (lhs_2 _ _).trans hk
  have hr : dd.rhsIdx (ix3 b f g) ((contrEquiv1 dd 32 rfl rfl).symm k) = ix3 b g k := by
    funext a
    refine Fin.ext ?_
    match a with
    | ⟨0, _⟩ => exact rhs_0 _ _
    | ⟨1, _⟩ => exact rhs_1 _ _
    | ⟨2, _⟩ => exact (rhs_2 _ _).trans hk
  rw [hl, hr]

/-! ## The two together -/

/-- The packed Gram rows at (b, q): the inner product of field vectors fI q and fJ q of sample b. -/
theorem G_apply (x : FVec Ideal S16384x64x32 .f32) (b : Fin 16384) (q : Fin 2016) :
    Cert.Pairs.G x (ix2 b q) = ∑ k : Fin 32, x (ix3 b (fI q.val) k) * x (ix3 b (fJ q.val) k) := rfl

/-- The gather, by the index table, of the batched product of x with itself is the packed Gram rows of x. -/
theorem gather_dot_eq (x : FVec Ideal S16384x64x32 .f32) :
    Host.gather gd (Host.dotGeneral (F := Ideal) dd none x x) idxTable = Cert.Pairs.G x := by
  funext j
  obtain ⟨b, q, rfl⟩ : ∃ (b : Fin 16384) (q : Fin 2016), j = ix2 b q := ⟨j 0, j 1, eq_ix2 j⟩
  have h0 : (⟨min (idxTable (ix2 q (0 : Fin 2))).toInt.toNat 63, by omega⟩ : Fin 64) = fI q.val :=
    Fin.ext ((congrArg (fun w : BitVec 32 => min w.toInt.toNat 63) (idxTable_row q)).trans (clamp_ofNat _))
  have h1 : (⟨min (idxTable (ix2 q (1 : Fin 2))).toInt.toNat 63, by omega⟩ : Fin 64) = fJ q.val :=
    Fin.ext ((congrArg (fun w : BitVec 32 => min w.toInt.toNat 63) (idxTable_col q)).trans (clamp_ofNat _))
  calc Host.gather gd (Host.dotGeneral (F := Ideal) dd none x x) idxTable (ix2 b q)
      = Host.dotGeneral (F := Ideal) dd none x x (gd.operandIdx (ix2 b q) idxTable) := rfl
    _ = Host.dotGeneral (F := Ideal) dd none x x (ix3 b (fI q.val) (fJ q.val)) := by
        rw [operandIdx_eq, h0, h1]
    _ = ∑ k : Fin 32, x (ix3 b (fI q.val) k) * x (ix3 b (fJ q.val) k) := dot_apply x b _ _
    _ = Cert.Pairs.G x (ix2 b q) := rfl

end Helpers

/-- Every weakly fair execution of the reference ends with its result at the packed Gram rows of its argument,
    the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.Pairs.G (m ((c.tc : Thread nD τ).loc main_arg0))
      ∧ r.2.mem ((c.tc : Thread nD τ).loc main_arg0) = m ((c.tc : Thread nD τ).loc main_arg0) :=
  (θ_run (defs (F := Ideal)) _ _).mono (fun _ h c => ⟨((h c).1).trans (gather_dot_eq _), (h c).2⟩)
    (run_term (F := Ideal) m ρ)

end Cert.ReferenceIdeal.Hand

end
-- ==== Proof.lean ====
/-
  The kernel packs the strict upper triangle of each sample's Gram matrix; the reference computes the same entries
  by gathering them from the whole Gram matrices.

  For an argument x of 16384 samples, each 64 field vectors of 32 coordinates, both programs end with the array
  G x : entry (b, q) = sum over d < 32 of x(b, f, d) * x(b, g, d), where (f, g), f < g, is the q-th pair of the
  strict upper triangle of 64 x 64 taken row by row (Proof/PairSpec.lean).

  The kernel (Proof/KernelBlock.lean, Proof/KernelArray.lean): each grid point forms the Gram matrices of 256
  samples from their rows of 2048 numbers (rounding the numbers to a shorter float format first, which is the
  identity at the exact values), lays each matrix flat and concatenates, for f = 0 ... 62, the slice of columns
  65 f + 1 ... 64 f + 63: position q of the concatenation is flat column 64 f + g of the pair at q.  The 64 blocks
  tile the result.
  The reference (Proof/RefGram.lean): one contraction gives all Gram matrices, and a gather reads, for each q, the
  entry at the row and column two literal index tables hold for q; the tables hold exactly the pairs (f, g) in
  that order, so the gathered array is the same G x.
  The sums are the same sums in the same order on both sides: no law of the extended reals beyond reading both
  contractions as sums is used, and the finiteness of the inputs is not needed.
-/
import proofs.«403513_j5970004542170_3_alg».proof.Defs
import proofs.«403513_j5970004542170_3_alg».proof.Proof.Gen.Kernel
import proofs.«403513_j5970004542170_3_alg».proof.Proof.Gen.Kernel.Frame
import proofs.«403513_j5970004542170_3_alg».proof.Proof.Gen.KernelIdeal
import proofs.«403513_j5970004542170_3_alg».proof.Proof.Gen.KernelIdeal.Frame
import proofs.«403513_j5970004542170_3_alg».proof.Proof.Gen.ReferenceIdeal
import proofs.«403513_j5970004542170_3_alg».proof.Proof.Gen.Pre_finite_inputs
import proofs.«403513_j5970004542170_3_alg».proof.Proof.KernelArray
import proofs.«403513_j5970004542170_3_alg».proof.Proof.RefGram

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Hand.run m ρ)

/-- Both programs end at the packed Gram rows of the argument they agree on. -/
theorem algebraic : Cert.algebraic_KernelIdeal_ReferenceIdeal := by
  intro m ρ m' ρ' _ hagree
  refine ⟨fun c => Cert.Pairs.G (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
